-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S100000x32 : Shape := ⟨2, ![100000, 32]⟩
abbrev S10000x128 : Shape := ⟨2, ![10000, 128]⟩
abbrev S10000x32 : Shape := ⟨2, ![10000, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩

abbrev nBuf : Space → Nat
  | .hbm => 66
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S100000x32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x32, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S1x32, .f32⟩
  | .hbm, ⟨65, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  dot_S10000x128_S128x32_S10000x32_1_0_0_1_n_n_wf : DotDims.WF S10000x128 S128x32 S10000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S100000x32 : Shape := ⟨2, ![100000, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S100000x32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S3300000x1, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x32, .f32⟩
  | .hbm, ⟨59, _⟩ => ⟨S3300000x32, .f32⟩
  | .hbm, ⟨60, _⟩ => ⟨S_, .f32⟩
  | .hbm, ⟨61, _⟩ => ⟨S100000x32, .f32⟩
  | .hbm, ⟨62, _⟩ => ⟨S3300000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S100000x32, .f32⟩
  | .hbm, ⟨71, _⟩ => ⟨S1x32, .f32⟩
  | .hbm, ⟨72, _⟩ => ⟨S100000x32, .f32⟩
  | .hbm, ⟨73, _⟩ => ⟨S100000x32, .f32⟩
  | .hbm, ⟨74, _⟩ => ⟨S_, .f32⟩
  | .hbm, ⟨75, _⟩ => ⟨S100000x32, .f32⟩
  | .hbm, ⟨76, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_cst : Ref sig .tc := ⟨.hbm, 74, rfl⟩
abbrev main_call2_v0 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.RefValue.lean ====
/-
  The reference program's result in three stages, each a function of what the stage before leaves:
  the projection `x · W_gcn` (a `dot_general`), the message passing over the edge list with self loops
  (`aggOf`: every edge carries `norm[e] · h[row e]` to node `col e`, a scatter-add into zeros), and the
  head (`headOf`: bias, ReLU, the dense layer, bias, ReLU). The kernel program computes the same three stages,
  the first and the last inside its two pallas_calls; this module states the stages once so that both programs'
  results are written with the same terms, and reads the head at an index.
-/
import proofs.«122560_j48430051229954_1_alg».proof.Proof.RefRun
import proofs.«122560_j48430051229954_1_alg».proof.Proof.RefRead
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.Stages

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## Message passing -/

/-- The aggregation both programs share, as a function of the projected features `h`, the per-edge normalisation
    `nrm` and the edge list `x1`: edge `e` (an input edge or a self loop) adds `nrm e · h[row e]` to row `col e`
    of a zero array. Row and column indices are the reference's own stages of the edge list. -/
def aggOf (h : (⟨S100000x32, .f32⟩ : BufTy).Contents (Elt F)) (nrm : (⟨S3300000, .f32⟩ : BufTy).Contents (Elt F))
    (x1 : (⟨S2x3200000, .i32⟩ : BufTy).Contents (Elt F)) : (⟨S100000x32, .f32⟩ : BufTy).Contents (Elt F) :=
  Host.scatterAdd scatter_S100000x32_S3300000x1_S3300000x32_1_0_0_1 (val_main_v42 (F := F)) (val_main_v43 (F := F) x1)
    (mulf (broadcastInDim S3300000x32 ![0, 1] bcast_S3300000x1_S3300000x32_0_1
            (broadcastInDim S3300000x1 ![0] bcast_S3300000_S3300000x1_0 nrm))
          (Host.gather gather_S100000x32_S3300000x1_S3300000x32_1_0_n_n_0_1_132 h (val_main_v38 (F := F) x1)))

/-- The reference's aggregated array is `aggOf` of its projection and its normalisation. -/
theorem agg_ref (x0 : (⟨S100000x128, .f32⟩ : BufTy).Contents (Elt F)) (x1 : (⟨S2x3200000, .i32⟩ : BufTy).Contents (Elt F))
    (x2 : (⟨S128x32, .f32⟩ : BufTy).Contents (Elt F)) :
    val_main_v44 (F := F) x0 x1 x2 = aggOf (val_main_v0 (F := F) x0 x2) (val_main_v31 (F := F) x1) x1 := rfl

/-- The normalisation without the reference's factor of ones: `dinv[row] · dinv[col]`. -/
def normOf (x1 : (⟨S2x3200000, .i32⟩ : BufTy).Contents (Elt F)) : (⟨S3300000, .f32⟩ : BufTy).Contents (Elt F) :=
  mulf (val_main_v22 (F := F) x1) (val_main_v30 (F := F) x1)

/-- The reference multiplies `dinv[row]` by the edge weights, all ones, before `dinv[col]`: on the extended reals
    that factor changes nothing. -/
theorem norm_ref (x1 : (⟨S2x3200000, .i32⟩ : BufTy).Contents (Elt Ideal)) :
    val_main_v31 (F := Ideal) x1 = normOf (F := Ideal) x1 := by
  funext i
  rw [val_main_v31_apply, val_main_v23_apply, val_main_v8_apply, val_main_cst_apply]
  unfold normOf
  rw [ValueIdx.mulf_apply]
  show (val_main_v22 (F := Ideal) x1 i * Ideal.ofBits .f32 0x3F800000#32) * val_main_v30 (F := Ideal) x1 i = _
  rw [Ideal.ofBits_one_f32, mul_one]

/-! ## The head -/

/-- Bias, ReLU, the dense layer, bias, ReLU, of an aggregated array `a`, the two biases as rows `[1, 32]`. -/
def headOf (a : (⟨S100000x32, .f32⟩ : BufTy).Contents (Elt F)) (bg : (⟨S1x32, .f32⟩ : BufTy).Contents (Elt F))
    (w : (⟨S32x32, .f32⟩ : BufTy).Contents (Elt F)) (bd : (⟨S1x32, .f32⟩ : BufTy).Contents (Elt F)) :
    (⟨S100000x32, .f32⟩ : BufTy).Contents (Elt F) :=
  maximumf (addf (Host.dotGeneral dot_S100000x32_S32x32_S100000x32_1_0_0_1_n_n none
      (maximumf (addf a (broadcastInDim S100000x32 ![0, 1] bcast_S1x32_S100000x32_0_1 bg)) (val_main_call1_v0 (F := F))) w)
      (broadcastInDim S100000x32 ![0, 1] bcast_S1x32_S100000x32_0_1 bd)) (val_main_call2_v0 (F := F))

/-- The reference's result is the head of its aggregated array. -/
theorem head_ref (x0 : (⟨S100000x128, .f32⟩ : BufTy).Contents (Elt F)) (x1 : (⟨S2x3200000, .i32⟩ : BufTy).Contents (Elt F))
    (x2 : (⟨S128x32, .f32⟩ : BufTy).Contents (Elt F)) (x3 : (⟨S32, .f32⟩ : BufTy).Contents (Elt F))
    (x4 : (⟨S32x32, .f32⟩ : BufTy).Contents (Elt F)) (x5 : (⟨S32, .f32⟩ : BufTy).Contents (Elt F)) :
    val_main_v53 (F := F) x0 x1 x2 x3 x4 x5
      = headOf (val_main_v44 (F := F) x0 x1 x2) (val_main_v45 (F := F) x3) x4 (val_main_v50 (F := F) x5) := rfl

/-- A bias row `[1, 32]` spread over the rows of `[100000, 32]`, read at an index: the row's entry in that column. -/
theorem rowBcast_apply (y : (⟨S1x32, .f32⟩ : BufTy).Contents (Elt F)) (i : S100000x32.Idx) :
    broadcastInDim S100000x32 ![0, 1] bcast_S1x32_S100000x32_0_1 y i = y (idx_main_v46 i) :=
  broadcastInDim_apply _ bcast_S1x32_S100000x32_0_1 y i (idx_main_v46 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

/-- The dense layer's `dot_general` of any left operand, read at an index: the sum over the 32 hidden units. -/
theorem dense_apply (y : FVec Ideal S100000x32 .f32) (w : FVec Ideal S32x32 .f32) (i : S100000x32.Idx) :
    Host.dotGeneral (F := Ideal) dot_S100000x32_S32x32_S100000x32_1_0_0_1_n_n none y w i
      = ∑ k : Fin 32, y (lidx_main_v49 i k) * w (ridx_main_v49 i k) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx i ((ValueIdx.contrEquiv1 dot_S100000x32_S32x32_S100000x32_1_0_0_1_n_n 32 rfl rfl).symm k) = lidx_main_v49 i k := funext fun a => Fin.ext (by
    match a with
    | ⟨0, _⟩ => exact lhs_main_v49_0 _ _
    | ⟨1, _⟩ => exact (lhs_main_v49_1 _ _).trans hk)
  have er : dot_S100000x32_S32x32_S100000x32_1_0_0_1_n_n.rhsIdx i ((ValueIdx.contrEquiv1 dot_S100000x32_S32x32_S100000x32_1_0_0_1_n_n 32 rfl rfl).symm k) = ridx_main_v49 i k := funext fun a => Fin.ext (by
    match a with
    | ⟨0, _⟩ => exact (rhs_main_v49_0 _ _).trans hk
    | ⟨1, _⟩ => exact rhs_main_v49_1 _ _)
  rw [el, er]

/-- The zero the ReLUs compare with, read at an index. -/
theorem relu_zero1 (i : S100000x32.Idx) : val_main_call1_v0 (F := Ideal) i = (0 : EReal) := by
  rw [val_main_call1_v0_apply, val_main_call1_cst_apply]
  exact Ideal.ofBits_zero_f32
theorem relu_zero2 (i : S100000x32.Idx) : val_main_call2_v0 (F := Ideal) i = (0 : EReal) := by
  rw [val_main_call2_v0_apply, val_main_call2_cst_apply]
  exact Ideal.ofBits_zero_f32

/-- THE HEAD AT AN INDEX `(r, q)`: `max (Σ_k max (a[r,k] + bg[0,k]) 0 · w[k,q] + bd[0,q]) 0`. -/
theorem headOf_apply (a : (⟨S100000x32, .f32⟩ : BufTy).Contents (Elt Ideal)) (bg : (⟨S1x32, .f32⟩ : BufTy).Contents (Elt Ideal))
    (w : (⟨S32x32, .f32⟩ : BufTy).Contents (Elt Ideal)) (bd : (⟨S1x32, .f32⟩ : BufTy).Contents (Elt Ideal)) (i : S100000x32.Idx) :
    headOf (F := Ideal) a bg w bd i
      = max ((∑ k : Fin 32, max (a (lidx_main_v49 i k) + bg (idx_main_v46 (lidx_main_v49 i k))) 0 * w (ridx_main_v49 i k))
          + bd (idx_main_v46 i)) 0 := by
  unfold headOf
  rw [ValueIdx.maximumf_apply, ValueIdx.addf_apply, dense_apply, rowBcast_apply, relu_zero2]
  refine congrArg (fun s => max (s + bd (idx_main_v46 i)) 0) (Finset.sum_congr rfl fun k _ => ?_)
  rw [ValueIdx.maximumf_apply, ValueIdx.addf_apply, rowBcast_apply, relu_zero1]

end Cert.ReferenceIdeal.Stages

end
-- ==== Proof.KernelProject.lean ====
/-
  The first pallas_call, `h = x · W_gcn` in ten row blocks of 10000: what it leaves in its output array.
  Block `t` of the output is the matrix product of rows `10000 t … 10000 t + 9999` of `x` with the whole of
  `W_gcn` (the casts to bf16 are the identity on the extended reals, the accumulator starts at zero), which is
  rows `10000 t …` of the whole product `x · W_gcn`; the ten blocks tile the array, so it ends holding the
  reference's `dot_general` of the two arguments.
-/
import proofs.«122560_j48430051229954_1_alg».proof.Proof.Gen.KernelIdeal.Frame
import proofs.«122560_j48430051229954_1_alg».proof.Proof.RefValue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Project

open Cert.KernelIdeal Cert.KernelIdeal.Gen
open Cert.ReferenceIdeal.ReadP (val_main_v0 val_main_v0_apply lidx_main_v0 ridx_main_v0)

-- the contents the region finds, at the extended reals
variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

theorem lhs_blk_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_blk_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_blk_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_blk_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Row `j 0` of the block of `x`, column `k`. -/
abbrev xAt (j : S10000x32.Idx) (k : Fin 128) : S10000x128.Idx := fun a => match a with
  | ⟨0, _⟩ => ⟨(j 0).val, (j 0).isLt⟩
  | ⟨1, _⟩ => ⟨k.val, k.isLt⟩
/-- Row `k` of `W_gcn`, column `j 1`. -/
abbrev wAt (j : S10000x32.Idx) (k : Fin 128) : S128x32.Idx := fun a => match a with
  | ⟨0, _⟩ => ⟨k.val, k.isLt⟩
  | ⟨1, _⟩ => ⟨(j 1).val, (j 1).isLt⟩

/-- The body's one stored value at an index of the block: the sum over the 128 input features. -/
theorem proj_pay_apply (x0 : Vec Ideal S10000x128 .f32) (x1 : Vec Ideal S128x32 .f32) (j : S10000x32.Idx) :
    k0_pay1 (F := Ideal) x0 x1 j = ∑ k : Fin 128, x0 (xAt j k) * x1 (wAt j k) := by
  unfold k0_pay1
  refine (Ideal.matmul_constant_zero_apply dot_S10000x128_S128x32_S10000x32_1_0_0_1_n_n none _ _ j).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx j ((ValueIdx.contrEquiv1 dot_S10000x128_S128x32_S10000x32_1_0_0_1_n_n 128 rfl rfl).symm k) = xAt j k := funext fun a => Fin.ext (by
    match a with
    | ⟨0, _⟩ => exact lhs_blk_0 _ _
    | ⟨1, _⟩ => exact (lhs_blk_1 _ _).trans hk)
  have er : dot_S10000x128_S128x32_S10000x32_1_0_0_1_n_n.rhsIdx j ((ValueIdx.contrEquiv1 dot_S10000x128_S128x32_S10000x32_1_0_0_1_n_n 128 rfl rfl).symm k) = wAt j k := funext fun a => Fin.ext (by
    match a with
    | ⟨0, _⟩ => exact (rhs_blk_0 _ _).trans hk
    | ⟨1, _⟩ => exact rhs_blk_1 _ _)
  rw [el, er]
  rfl

/-! ## The blocks in the arrays -/

/-- The printed index maps over the ten points: the block of `x` moves with the output's block down the rows,
    `W_gcn` is fetched whole, the output's block row is the point's number. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the whole product of the two arrays as the region finds them. -/
theorem flushed_eq (c : Dev nD) (t : Fin cfg0.N) :
    (dat0 V c).flushed 2 t
      = ((cfg0.win 2).blk t).view.read (Elt Ideal) (val_main_v0 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext j
  show k0_pay1 (F := Ideal) (iblk0 V c 0 t) (iblk0 V c 1 t) j
      = val_main_v0 (F := Ideal) (V c main_arg0) (V c main_arg2) (((cfg0.win 2).blk t).view.emb j)
  refine (proj_pay_apply (iblk0 V c 0 t) (iblk0 V c 1 t) j).trans ?_
  refine Eq.trans ?_ (val_main_v0_apply (V c main_arg0) (V c main_arg2) (((cfg0.win 2).blk t).view.emb j)).symm
  refine Finset.sum_congr rfl fun k _ => ?_
  have hx : (iblk0 V c 0 t : Vec Ideal S10000x128 .f32) (xAt j k)
      = V c main_arg0 (lidx_main_v0 (((cfg0.win 2).blk t).view.emb j) k) := by
    show V c main_arg0 (((cfg0.win 0).blk t).view.emb (xAt j k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : (iblk0 V c 1 t : Vec Ideal S128x32 .f32) (wAt j k)
      = V c main_arg2 (ridx_main_v0 (((cfg0.win 2).blk t).view.emb j) k) := by
    show V c main_arg2 (((cfg0.win 1).blk t).view.emb (wAt j k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega
  rw [hx, hw]

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- Row `r` of the output is written by point `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE OUTPUT ARRAY after the region: the whole product of the two arrays it read. -/
theorem final (c : Dev nD) :
    (dat0 V c).arrAt 2 cfg0.N = val_main_v0 (F := Ideal) (V c main_arg0) (V c main_arg2) :=
  (dat0 V c).arrAt_eq_of_cover 2 _ (fun t _ => flushed_eq V c t) cover

end Cert.KernelIdeal.Project

end
-- ==== Proof.KernelHeadPay.lean ====
/-
  The second pallas_call's arithmetic at one index of a block: with `a` the block of the aggregated array, `bg`
  and `bd` the two bias rows and `w` the dense weights, the stored value at `(p, q)` is
  `max (Σ_k max (a[p,k] + bg[0,k]) 0 · w[k,q] + bd[0,q]) 0` — the casts to bf16 are the identity on the extended
  reals and the matrix product starts from a zero accumulator.
-/
import proofs.«122560_j48430051229954_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.HeadPay

open Cert.KernelIdeal Cert.KernelIdeal.Gen

theorem lhs_blk_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_blk_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhs_blk_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhs_blk_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Row `j 0` of the block, hidden unit `k`. -/
abbrev aAt (j : S10000x32.Idx) (k : Fin 32) : S10000x32.Idx := fun a => match a with
  | ⟨0, _⟩ => ⟨(j 0).val, (j 0).isLt⟩
  | ⟨1, _⟩ => ⟨k.val, k.isLt⟩
/-- Row `k` of the dense weights, column `j 1`. -/
abbrev wAt (j : S10000x32.Idx) (k : Fin 32) : S32x32.Idx := fun a => match a with
  | ⟨0, _⟩ => ⟨k.val, k.isLt⟩
  | ⟨1, _⟩ => ⟨(j 1).val, (j 1).isLt⟩
/-- Entry `k` of a bias row `[1, 32]`. -/
abbrev rowAt (k : Fin 32) : S1x32.Idx := fun a => match a with
  | ⟨0, _⟩ => ⟨0, Nat.one_pos⟩
  | ⟨1, _⟩ => ⟨k.val, k.isLt⟩

/-- A bias row spread over the block's rows, read at an index: the row's entry in that column. -/
theorem rowBroadcast_apply (x : Vec Ideal S1x32 .f32) (j : S10000x32.Idx) :
    broadcastTo S10000x32 x broadcasts_S1x32_S10000x32 j = x (rowAt ⟨(j 1).val, (j 1).isLt⟩) :=
  broadcastTo_apply x broadcasts_S1x32_S10000x32 j (rowAt ⟨(j 1).val, (j 1).isLt⟩) (fun a => match a with
    | ⟨0, _⟩ => by show 0 = if (1 : Nat) = 1 then 0 else _; rw [if_pos rfl]
    | ⟨1, _⟩ => by show (j 1).val = if (32 : Nat) = 1 then 0 else _; rw [if_neg (by decide)]; rfl)

/-- The block product of any left operand at an index: the sum over the 32 hidden units. -/
theorem blockDense_apply (y : FVec Ideal S10000x32 .bf16) (w : FVec Ideal S32x32 .bf16) (j : S10000x32.Idx) :
    matmul dot_S10000x32_S32x32_S10000x32_1_0_0_1_n_n none y w (constant S10000x32 .f32 0x00000000#32) j = ∑ k : Fin 32, y (aAt j k) * w (wAt j k) := by
  refine (Ideal.matmul_constant_zero_apply dot_S10000x32_S32x32_S10000x32_1_0_0_1_n_n none y w j).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx j ((ValueIdx.contrEquiv1 dot_S10000x32_S32x32_S10000x32_1_0_0_1_n_n 32 rfl rfl).symm k) = aAt j k := funext fun a => Fin.ext (by
    match a with
    | ⟨0, _⟩ => exact lhs_blk_0 _ _
    | ⟨1, _⟩ => exact (lhs_blk_1 _ _).trans hk)
  have er : dot_S10000x32_S32x32_S10000x32_1_0_0_1_n_n.rhsIdx j ((ValueIdx.contrEquiv1 dot_S10000x32_S32x32_S10000x32_1_0_0_1_n_n 32 rfl rfl).symm k) = wAt j k := funext fun a => Fin.ext (by
    match a with
    | ⟨0, _⟩ => exact (rhs_blk_0 _ _).trans hk
    | ⟨1, _⟩ => exact rhs_blk_1 _ _)
  rw [el, er]

/-- THE STORED VALUE at an index of the block. -/
theorem head_pay_apply (x0 : Vec Ideal S10000x32 .f32) (x1 : Vec Ideal S1x32 .f32) (x2 : Vec Ideal S32x32 .f32)
    (x3 : Vec Ideal S1x32 .f32) (j : S10000x32.Idx) :
    k1_pay1 (F := Ideal) x0 x1 x2 x3 j
      = max ((∑ k : Fin 32, max (x0 (aAt j k) + x1 (rowAt k)) 0 * x2 (wAt j k)) + x3 (rowAt ⟨(j 1).val, (j 1).isLt⟩)) 0 := by
  unfold k1_pay1
  dsimp only
  simp only [shapeCast_self]
  rw [ValueIdx.maximumf_apply, ValueIdx.addf_apply, blockDense_apply, rowBroadcast_apply, ValueIdx.broadcast_apply]
  show max (_ + _) (Ideal.ofBits .f32 0x00000000#32) = _
  rw [Ideal.ofBits_zero_f32]
  refine congrArg (fun s => max (s + x3 (rowAt ⟨(j 1).val, (j 1).isLt⟩)) 0) (Finset.sum_congr rfl fun k _ => ?_)
  show max (x0 (aAt j k) + broadcastTo S10000x32 x1 broadcasts_S1x32_S10000x32 (aAt j k)) (Ideal.ofBits .f32 0x00000000#32) * x2 (wAt j k) = _
  rw [rowBroadcast_apply, Ideal.ofBits_zero_f32]

end Cert.KernelIdeal.HeadPay

end
-- ==== Proof.KernelHead.lean ====
/-
  The second pallas_call — bias, ReLU, the dense layer, bias, ReLU, in ten row blocks of 10000 — and what it
  leaves in its output array. Block `t` of the output is the head of rows `10000 t … 10000 t + 9999` of the
  aggregated array (the bias rows and the dense weights are fetched whole at every point), which is rows
  `10000 t …` of the head of the whole array; the ten blocks tile the output, so it ends holding the head
  (`Stages.headOf`) of the four arrays the region read.
-/
import proofs.«122560_j48430051229954_1_alg».proof.Proof.Gen.KernelIdeal.Frame
import proofs.«122560_j48430051229954_1_alg».proof.Proof.KernelHeadPay
import proofs.«122560_j48430051229954_1_alg».proof.Proof.RefValue
import Idealize.ShloMosaic.Lib.Pipeline.Value

noncomputable section

open Idealize.ShloMosaic Idealize.ShloMosaic.TcCoe Idealize.SL.Sem
open Idealize.ShloMosaic.Pipeline (Dat)

namespace Cert.KernelIdeal.Head

open Cert.KernelIdeal Cert.KernelIdeal.Gen Cert.KernelIdeal.HeadPay
open Cert.ReferenceIdeal.Stages (headOf headOf_apply)
open Cert.ReferenceIdeal.ReadP (lidx_main_v49 ridx_main_v49 idx_main_v46)

-- the contents the region finds, at the extended reals
variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the aggregated array's block moves with the output's block down
    the rows, the bias rows and the dense weights are fetched whole, the output's block row is the point's number. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0
    ∧ win1_4.index t (0 : Fin 2) = t.val :=
  (by decide +kernel : ∀ t : Fin grid1.N, _)

/-- WHAT POINT `t` WRITES BACK is block `t` of the head of the four arrays as the region finds them. -/
theorem flushed_eq (c : Dev nD) (t : Fin cfg1.N) :
    (dat1 V c).flushed 4 t
      = ((cfg1.win 4).blk t).view.read (Elt Ideal)
          (headOf (F := Ideal) (V c main_v43) (V c main_v44) (V c main_arg4) (V c main_v45)) := by
  show (cfg1.win 4).cut (grid1.coords t) ((dat1 V c).after 4 t) = _
  rw [after1_4]
  unfold out1_4
  rw [View.canon_unit_zero hz]
  simp only [View.ld_unit_zero (S := S10000x32) hz, View.ld_unit_zero (S := S1x32) hz, View.ld_unit_zero (S := S32x32) hz]
  obtain ⟨e0, e1, e2, e3, e4, e5, e6, e7, e8, e9⟩ := idx_facts t
  funext j
  show k1_pay1 (F := Ideal) (iblk1 V c 0 t) (iblk1 V c 1 t) (iblk1 V c 2 t) (iblk1 V c 3 t) j
      = headOf (F := Ideal) (V c main_v43) (V c main_v44) (V c main_arg4) (V c main_v45) (((cfg1.win 4).blk t).view.emb j)
  refine (head_pay_apply (iblk1 V c 0 t) (iblk1 V c 1 t) (iblk1 V c 2 t) (iblk1 V c 3 t) j).trans ?_
  refine Eq.trans ?_ (headOf_apply (V c main_v43) (V c main_v44) (V c main_arg4) (V c main_v45) (((cfg1.win 4).blk t).view.emb j)).symm
  have hbd : (iblk1 V c 3 t : Vec Ideal S1x32 .f32) (rowAt ⟨(j 1).val, (j 1).isLt⟩)
      = V c main_v45 (idx_main_v46 (((cfg1.win 4).blk t).view.emb j)) := by
    show V c main_v45 (((cfg1.win 3).blk t).view.emb (rowAt ⟨(j 1).val, (j 1).isLt⟩)) = _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 32 + 1 * (j 1).val = win1_4.index t (1 : Fin 2) * 32 + 1 * (j 1).val; omega
  rw [hbd]
  refine congrArg (fun s => max (s + V c main_v45 (idx_main_v46 (((cfg1.win 4).blk t).view.emb j))) 0) (Finset.sum_congr rfl fun k _ => ?_)
  have ha : (iblk1 V c 0 t : Vec Ideal S10000x32 .f32) (aAt j k)
      = V c main_v43 (lidx_main_v49 (((cfg1.win 4).blk t).view.emb j) k) := by
    show V c main_v43 (((cfg1.win 0).blk t).view.emb (aAt j k)) = _
    refine congrArg (V c main_v43) (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 32 + 1 * k.val = k.val; omega
  have hbg : (iblk1 V c 1 t : Vec Ideal S1x32 .f32) (rowAt k)
      = V c main_v44 (idx_main_v46 (lidx_main_v49 (((cfg1.win 4).blk t).view.emb j) k)) := by
    show V c main_v44 (((cfg1.win 1).blk t).view.emb (rowAt k)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 32 + 1 * k.val = k.val; omega
  have hw : (iblk1 V c 2 t : Vec Ideal S32x32 .f32) (wAt j k)
      = V c main_arg4 (ridx_main_v49 (((cfg1.win 4).blk t).view.emb j) k) := by
    show V c main_arg4 (((cfg1.win 2).blk t).view.emb (wAt j k)) = _
    refine congrArg (V c main_arg4) (funext fun a => Fin.ext ?_)
    match a with
    | ⟨0, _⟩ => show win1_2.index t (0 : Fin 2) * 32 + 1 * k.val = k.val; omega
    | ⟨1, _⟩ => show win1_2.index t (1 : Fin 2) * 32 + 1 * (j 1).val = win1_4.index t (1 : Fin 2) * 32 + 1 * (j 1).val; omega
  rw [ha, hbg, hw]

/-- An index of the output array is in point `t`'s block iff each coordinate is in the block's range on its axis. -/
theorem mem_blk (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v46).slice (win1_4.rect t)).set ↔ _
  rw [View.set_slice_whole, Rect.mem_set_unit]
  exact Iff.rfl

/-- Row `r` of the output is written by point `r / 10000`. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5, e6, e7, e8, e9⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 32 ≤ (i 1).val ∧ (i 1).val < win1_4.index t (1 : Fin 2) * 32 + 32; omega

/-- THE OUTPUT ARRAY after the region: the head of the four arrays it read. -/
theorem final (c : Dev nD) :
    (dat1 V c).arrAt 4 cfg1.N = headOf (F := Ideal) (V c main_v43) (V c main_v44) (V c main_arg4) (V c main_v45) :=
  (dat1 V c).arrAt_eq_of_cover 4 _ (fun t _ => flushed_eq V c t) cover

end Cert.KernelIdeal.Head

end
-- ==== Proof.KernelGlue.lean ====
/-
  Between the two pallas_calls the kernel program runs, on the host, the same message passing as the reference:
  degrees by a scatter-add of ones, their inverse square roots, the per-edge normalisation, the gather of the
  projected rows, and the scatter-add of the weighted rows. This module reads what those 58 host operations leave
  in the four arrays the second pallas_call reads — the aggregated array as `Stages.aggOf` of the first
  pallas_call's output, the two biases reshaped to rows, the dense weights untouched — and then what the second
  pallas_call's output array holds after the run, as one term of the program's arguments.
-/
import proofs.«122560_j48430051229954_1_alg».proof.Proof.Gen.KernelIdeal.Frame
import proofs.«122560_j48430051229954_1_alg».proof.Proof.KernelProject
import proofs.«122560_j48430051229954_1_alg».proof.Proof.KernelHead
import proofs.«122560_j48430051229954_1_alg».proof.Proof.RefValue
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Glue

open Cert.KernelIdeal Cert.KernelIdeal.Gen
open Cert.ReferenceIdeal.Stages (aggOf normOf headOf)
open Cert.ReferenceIdeal.ReadP (val_main_v0 val_main_v45 val_main_v45_apply idx_main_v45)

section AnyFloats

variable {F : FTy → Type} [FloatOps F]

/-- The host operations between the regions, from any contents `W`: the aggregated array is `aggOf` of the
    projected features in `main_v0`, of `dinv[row] · dinv[col]` and of the edge list. -/
theorem agg_after (W : Valuation τ sig (Elt F)) :
    StableHlo.after hostOps1_2 (StableHlo.after hostOps1_1 (StableHlo.after hostOps1 W)) (Proc.devRef .tc main_v43)
      = aggOf (F := F) (W (Proc.devRef .tc main_v0)) (normOf (F := F) (W (Proc.devRef .tc main_arg1))) (W (Proc.devRef .tc main_arg1)) := by
  after_results_simp
  (try simp only [TRef.ofBuf, TRef.toBuf, cast_eq])
  rfl

/-- The bias of the graph convolution reshaped to a row. -/
theorem bg_after (W : Valuation τ sig (Elt F)) :
    StableHlo.after hostOps1_2 (StableHlo.after hostOps1_1 (StableHlo.after hostOps1 W)) (Proc.devRef .tc main_v44)
      = shapeCast S1x32 (W (Proc.devRef .tc main_arg3)) shapeCasts_S32_S1x32 := by
  after_results_simp
  rfl

/-- The bias of the dense layer reshaped to a row. -/
theorem bd_after (W : Valuation τ sig (Elt F)) :
    StableHlo.after hostOps1_2 (StableHlo.after hostOps1_1 (StableHlo.after hostOps1 W)) (Proc.devRef .tc main_v45)
      = shapeCast S1x32 (W (Proc.devRef .tc main_arg5)) shapeCasts_S32_S1x32 := by
  after_results_simp
  rfl

/-- A vector `[32]` reshaped to a row `[1, 32]` is the reference's broadcast of it along a new leading axis. -/
theorem row_of_vec (x : (⟨S32, .f32⟩ : BufTy).Contents (Elt F)) :
    shapeCast S1x32 x shapeCasts_S32_S1x32 = val_main_v45 (F := F) x := by
  funext i
  rw [val_main_v45_apply]
  refine shapeCast_apply x shapeCasts_S32_S1x32 i (idx_main_v45 i) ?_
  rw [Shape.rowMajor_val_one, Shape.rowMajor_val_two]
  have h0 : (i 0).val < 1 := (i 0).isLt
  show (i 1).val = (i 0).val * 32 + (i 1).val
  omega

end AnyFloats

variable (m : (ℓ : Loc nD τ sig) → Buf (Elt Ideal) ℓ) (ρ : Dev nD → PrngReg)

/-- The first region's output array at its exit: the whole product `x · W_gcn`. -/
theorem h_exit (c : Dev nD) :
    V1 m ρ c main_v0 = val_main_v0 (F := Ideal) (m ((c : Thread nD τ).loc main_arg0)) (m ((c : Thread nD τ).loc main_arg2)) :=
  (W1_arr m ρ c 2).trans (Project.final (V0 m ρ) c)

/-- An argument no region writes is at the first region's exit what it was at launch. -/
theorem arg1_exit (c : Dev nD) : V1 m ρ c main_arg1 = m ((c : Thread nD τ).loc main_arg1) := W1_of_ne m ρ c main_arg1 (by decide)
theorem arg3_exit (c : Dev nD) : V1 m ρ c main_arg3 = m ((c : Thread nD τ).loc main_arg3) := W1_of_ne m ρ c main_arg3 (by decide)
theorem arg5_exit (c : Dev nD) : V1 m ρ c main_arg5 = m ((c : Thread nD τ).loc main_arg5) := W1_of_ne m ρ c main_arg5 (by decide)

/-- The four arrays the second region reads, as it finds them. -/
theorem agg_entry (c : Dev nD) :
    V4 m ρ c main_v43 = aggOf (F := Ideal) (val_main_v0 (F := Ideal) (m ((c : Thread nD τ).loc main_arg0)) (m ((c : Thread nD τ).loc main_arg2)))
      (normOf (F := Ideal) (m ((c : Thread nD τ).loc main_arg1))) (m ((c : Thread nD τ).loc main_arg1)) := by
  refine (agg_after (W1 m ρ c)).trans ?_
  rw [show W1 m ρ c (Proc.devRef .tc main_v0) = _ from h_exit m ρ c, show W1 m ρ c (Proc.devRef .tc main_arg1) = _ from arg1_exit m ρ c]
theorem bg_entry (c : Dev nD) : V4 m ρ c main_v44 = val_main_v45 (F := Ideal) (m ((c : Thread nD τ).loc main_arg3)) := by
  refine (bg_after (W1 m ρ c)).trans ?_
  rw [show W1 m ρ c (Proc.devRef .tc main_arg3) = _ from arg3_exit m ρ c, row_of_vec]
theorem bd_entry (c : Dev nD) : V4 m ρ c main_v45 = val_main_v45 (F := Ideal) (m ((c : Thread nD τ).loc main_arg5)) := by
  refine (bd_after (W1 m ρ c)).trans ?_
  rw [show W1 m ρ c (Proc.devRef .tc main_arg5) = _ from arg5_exit m ρ c, row_of_vec]
/-- The dense weights are an input window of the second region: it leaves them as it found them, and nothing before
    it writes them. -/
theorem w_entry (c : Dev nD) : V4 m ρ c main_arg4 = m ((c : Thread nD τ).loc main_arg4) :=
  ((W5_arr m ρ c 2).trans (((dat1 (V4 m ρ) c).arrAt_in 2 rfl _).trans (A_eq1 (V4 m ρ) c 2))).symm.trans (W5_main_arg4 m ρ c)

/-- THE RESULT ARRAY at the last boundary, as one term of the arguments. -/
theorem result_eq (c : Dev nD) :
    W5 m ρ c (Proc.devRef .tc main_v46)
      = headOf (F := Ideal)
          (aggOf (F := Ideal) (val_main_v0 (F := Ideal) (m ((c : Thread nD τ).loc main_arg0)) (m ((c : Thread nD τ).loc main_arg2)))
            (normOf (F := Ideal) (m ((c : Thread nD τ).loc main_arg1))) (m ((c : Thread nD τ).loc main_arg1)))
          (val_main_v45 (F := Ideal) (m ((c : Thread nD τ).loc main_arg3)))
          (m ((c : Thread nD τ).loc main_arg4))
          (val_main_v45 (F := Ideal) (m ((c : Thread nD τ).loc main_arg5))) := by
  refine (W5_arr m ρ c 4).trans ?_
  rw [Head.final (V4 m ρ) c, agg_entry, bg_entry, bd_entry, w_entry]

end Cert.KernelIdeal.Glue

end
-- ==== Proof.lean ====
/-
  The certificate of a two-layer graph network: `relu (relu (A (x · W_gcn) + b_gcn) · W_dense + b_dense)`, where
  `A` is the symmetric-normalised aggregation over the edge list with self loops. The kernel program computes the
  projection `x · W_gcn` and the head (bias, ReLU, dense layer, bias, ReLU) in two pallas_calls over ten row blocks
  each and the aggregation `A` on the host between them; the reference computes all of it on the host.

  On the extended reals the two agree for every input, finite or not: a block product into a zero accumulator is
  the rows of the whole product (the casts to bf16 are the identity there), the blocks tile their arrays, the host
  aggregation is the same term in both programs up to the reference's factor of ones in the edge normalisation
  (`a · 1 = a`), and a bias vector reshaped to a row is that vector broadcast along a new leading axis. No law
  used needs finiteness, so the precondition is never opened.

  The frames of the two kernel programs are the generated ones; the reference's is its run with the result dropped;
  the ideal pass rewrote nothing, so `preserves` is `True`.
-/
import proofs.«122560_j48430051229954_1_alg».proof.Defs
import proofs.«122560_j48430051229954_1_alg».proof.Proof.Gen.Kernel
import proofs.«122560_j48430051229954_1_alg».proof.Proof.Gen.Kernel.Skeleton
import proofs.«122560_j48430051229954_1_alg».proof.Proof.Gen.Kernel.Launch
import proofs.«122560_j48430051229954_1_alg».proof.Proof.Gen.Kernel.Points
import proofs.«122560_j48430051229954_1_alg».proof.Proof.Gen.Kernel.Frame
import proofs.«122560_j48430051229954_1_alg».proof.Proof.Gen.KernelIdeal
import proofs.«122560_j48430051229954_1_alg».proof.Proof.Gen.KernelIdeal.Skeleton
import proofs.«122560_j48430051229954_1_alg».proof.Proof.Gen.KernelIdeal.Launch
import proofs.«122560_j48430051229954_1_alg».proof.Proof.Gen.KernelIdeal.Points
import proofs.«122560_j48430051229954_1_alg».proof.Proof.Gen.KernelIdeal.Frame
import proofs.«122560_j48430051229954_1_alg».proof.Proof.Gen.ReferenceIdeal
import proofs.«122560_j48430051229954_1_alg».proof.Proof.Gen.Pre_finite_inputs
import proofs.«122560_j48430051229954_1_alg».proof.Proof.RefRun
import proofs.«122560_j48430051229954_1_alg».proof.Proof.RefRead
import proofs.«122560_j48430051229954_1_alg».proof.Proof.RefValue
import proofs.«122560_j48430051229954_1_alg».proof.Proof.KernelRun
import proofs.«122560_j48430051229954_1_alg».proof.Proof.KernelGlue
import Idealize.ShloMosaic.Adequacy
import Idealize.ShloMosaic.Init

noncomputable section

namespace Cert.Proof

open Idealize.ShloMosaic Idealize.ShloMosaic.TcCoe Idealize.SL.Sem
open Cert.ReferenceIdeal.Stages Cert.ReferenceIdeal.ReadP

/-- The two bias rows of the reference are one function of their vector. -/
theorem bias_row_eq {F : FTy → Type} [FloatOps F] (x : (⟨Cert.ReferenceIdeal.S32, .f32⟩ : BufTy).Contents (Elt F)) :
    val_main_v50 (F := F) x = val_main_v45 (F := F) x := rfl

/-- The reference's result in the three stages: the head of the aggregation of the projection, the edge
    normalisation without its factor of ones. -/
theorem ref_result (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x32, .f32⟩ : BufTy).Contents (Elt Ideal))
    (x3 : (⟨Cert.ReferenceIdeal.S32, .f32⟩ : BufTy).Contents (Elt Ideal))
    (x4 : (⟨Cert.ReferenceIdeal.S32x32, .f32⟩ : BufTy).Contents (Elt Ideal))
    (x5 : (⟨Cert.ReferenceIdeal.S32, .f32⟩ : BufTy).Contents (Elt Ideal)) :
    val_main_v53 (F := Ideal) x0 x1 x2 x3 x4 x5
      = headOf (F := Ideal) (aggOf (F := Ideal) (val_main_v0 (F := Ideal) x0 x2) (normOf (F := Ideal) x1) x1)
          (val_main_v45 (F := Ideal) x3) x4 (val_main_v45 (F := Ideal) x5) := by
  rw [head_ref, agg_ref, norm_ref, bias_row_eq]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the same result array: the kernel
    program's is read off its run (the second pallas_call's output after its write-backs), the reference's is its
    run's term, and both are the head of the aggregation of the projection of the same arguments. -/
theorem algebraic : Cert.algebraic_KernelIdeal_ReferenceIdeal := by
  intro m ρ m' ρ' _ hagree
  refine ⟨_, Cert.KernelIdeal.GenP.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (val_main_v53_eq m' c).trans ?_
  obtain ⟨h0, h1, h2, h3, h4, h5⟩ := hagree c
  rw [h0, h1, h2, h3, h4, h5]
  exact (ref_result _ _ _ _ _ _).trans (Cert.KernelIdeal.Glue.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
